-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x3200000 : Shape := ⟨2, ![2, 3200000]⟩
abbrev S64x11 : Shape := ⟨2, ![64, 11]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S64x11 : S_.BroadcastsInDim S64x11 (![] : Fin 0 → Fin S64x11.rank)
  reducesTo_S64x11_S_d0_1 : S64x11.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1x64 .f32) (main_arg9 : FVec F S1 .f32) (main_v13 : IVec S_ 1) (main_v16 : IVec S64x11 1) : IVec S_ 1 :=
  let main_c_5 : IVec S_ 1 := constantI S_ 1 1#1
  let main_v17 : IVec S_ 1 := (fun x v => Host.reduce IntOp.andi x v reducesTo_S64x11_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x11 .f32) (main_arg1 : IVec S2x3200000 32) (main_arg2 : FVec F S64x11 .f32) (main_arg3 : FVec F S64 .f32) (main_arg4 : FVec F S64x11 .f32) (main_arg5 : FVec F S64x64 .f32) (main_arg6 : FVec F S64 .f32) (main_arg7 : FVec F S64x64 .f32) (main_arg8 : FVec F S1x64 .f32) (main_arg9 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S64x11 .f32 := Host.absf main_arg2
  let main_cst_0 : FVec F S_ .f32 := constant S_ .f32 0x7F800000#32
  let main_v5 : FVec F S64x11 .f32 := broadcastInDim S64x11 ![] bcast_S_S64x11 main_cst_0
  let main_v6 : IVec S64x11 1 := cmpf .olt main_v4 main_v5
  let main_c_1 : IVec S_ 1 := constantI S_ 1 1#1
  let main_v7 : IVec S_ 1 := (fun x v => Host.reduce IntOp.andi x v reducesTo_S64x11_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x11 .f32 := Host.absf main_arg4
  let main_cst_4 : FVec F S_ .f32 := constant S_ .f32 0x7F800000#32
  let main_v15 : FVec F S64x11 .f32 := broadcastInDim S64x11 ![] bcast_S_S64x11 main_cst_4
  let main_v16 : IVec S64x11 1 := cmpf .olt main_v14 main_v15
  fn_part1 (F := F) main_arg5 main_arg6 main_arg7 main_arg8 main_arg9 main_v13 main_v16
-- ==== Kernel.lean ====
abbrev S100000x11 : Shape := ⟨2, ![100000, 11]⟩
abbrev S2x3200000 : Shape := ⟨2, ![2, 3200000]⟩
abbrev S64x11 : Shape := ⟨2, ![64, 11]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x11 : Shape := ⟨2, ![3200000, 11]⟩
abbrev S100000x1 : Shape := ⟨2, ![100000, 1]⟩
abbrev S11x64 : Shape := ⟨2, ![11, 64]⟩
abbrev S100000x64 : Shape := ⟨2, ![100000, 64]⟩
abbrev S4000x11 : Shape := ⟨2, ![4000, 11]⟩
abbrev S4000x64 : Shape := ⟨2, ![4000, 64]⟩
abbrev S3200000x64 : Shape := ⟨2, ![3200000, 64]⟩
abbrev S64x1 : Shape := ⟨2, ![64, 1]⟩
abbrev S4000x1 : Shape := ⟨2, ![4000, 1]⟩
abbrev S1x1 : Shape := ⟨2, ![1, 1]⟩

abbrev nBuf : Space → Nat
  | .hbm => 65
  | .vmem => 20
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S64x11, .f32⟩
  | .hbm, ⟨3, _⟩ => ⟨S64, .f32⟩
  | .hbm, ⟨4, _⟩ => ⟨S64x11, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x11, .f32⟩
  | .hbm, ⟨35, _⟩ => ⟨S_, .f32⟩
  | .hbm, ⟨36, _⟩ => ⟨S100000x11, .f32⟩
  | .hbm, ⟨37, _⟩ => ⟨S3200000x1, .i32⟩
  | .hbm, ⟨38, _⟩ => ⟨S100000x11, .f32⟩
  | .hbm, ⟨39, _⟩ => ⟨S100000x1, .f32⟩
  | .hbm, ⟨40, _⟩ => ⟨S100000x11, .f32⟩
  | .hbm, ⟨41, _⟩ => ⟨S100000x11, .f32⟩
  | .hbm, ⟨42, _⟩ => ⟨S11x64, .f32⟩
  | .hbm, ⟨43, _⟩ => ⟨S11x64, .f32⟩
  | .hbm, ⟨44, _⟩ => ⟨S100000x64, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x64, .f32⟩
  | .hbm, ⟨54, _⟩ => ⟨S_, .f32⟩
  | .hbm, ⟨55, _⟩ => ⟨S100000x64, .f32⟩
  | .hbm, ⟨56, _⟩ => ⟨S3200000x1, .i32⟩
  | .hbm, ⟨57, _⟩ => ⟨S100000x64, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S64x64, .f32⟩
  | .hbm, ⟨62, _⟩ => ⟨S64x64, .f32⟩
  | .hbm, ⟨63, _⟩ => ⟨S64x1, .f32⟩
  | .hbm, ⟨64, _⟩ => ⟨S100000x1, .f32⟩
  | .local _ .vmem, ⟨0, _⟩ => ⟨S4000x11, .f32⟩
  | .local _ .vmem, ⟨1, _⟩ => ⟨S4000x11, .f32⟩
  | .local _ .vmem, ⟨2, _⟩ => ⟨S4000x11, .f32⟩
  | .local _ .vmem, ⟨3, _⟩ => ⟨S4000x11, .f32⟩
  | .local _ .vmem, ⟨4, _⟩ => ⟨S11x64, .f32⟩
  | .local _ .vmem, ⟨5, _⟩ => ⟨S64, .f32⟩
  | .local _ .vmem, ⟨6, _⟩ => ⟨S11x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S64x1, .f32⟩
  | .local _ .vmem, ⟨17, _⟩ => ⟨S1, .f32⟩
  | .local _ .vmem, ⟨18, _⟩ => ⟨S4000x1, .f32⟩
  | .local _ .vmem, ⟨19, _⟩ => ⟨S4000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x11 : S_.BroadcastsInDim S100000x11 (![] : Fin 0 → Fin S100000x11.rank)
  bcast_S100000_S100000x1_0 : S100000.BroadcastsInDim S100000x1 (![0] : Fin 1 → Fin S100000x1.rank)
  bcast_S100000x1_S100000x11_0_1 : S100000x1.BroadcastsInDim S100000x11 (![0, 1] : Fin 2 → Fin S100000x11.rank)
  transposes_S64x11_S11x64_1_0 : S64x11.Transposes [1, 0] S11x64
  inb_S4000x11_S4000x11_0_0 : ∀ a, (![0, 0] : Fin 2 → Nat) a + S4000x11.size a ≤ S4000x11.size a
  h_S4000x11 : 0 < S4000x11.numel
  shapeCasts_S4000x11_S4000x11 : S4000x11.ShapeCasts S4000x11
  bitsLt_bf16_f32 : FTy.bits .bf16 < FTy.bits .f32
  inb_S11x64_S11x64_0_0 : ∀ a, (![0, 0] : Fin 2 → Nat) a + S11x64.size a ≤ S11x64.size a
  h_S11x64 : 0 < S11x64.numel
  shapeCasts_S11x64_S11x64 : S11x64.ShapeCasts S11x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S100000_S3200000x1_S3200000_n_0_0_1_wf : ScatterDims.WF S100000 S3200000x1 S3200000 [] [0] [0] 1
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1
  dot_S4000x11_S11x64_S4000x64_1_0_0_1_n_n_wf : DotDims.WF S4000x11 S11x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x11.size a ≤ S100000x11.size a
  hwx0_0 : ∀ i : grid0.Coords, EltTy.bits .f32 = 32 ∨ (Rect.block (s := S100000x11) S4000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x11.size a ≤ S100000x11.size a
  hwx0_1 : ∀ i : grid0.Coords, EltTy.bits .f32 = 32 ∨ (Rect.block (s := S100000x11) S4000x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x64.size a ≤ S11x64.size a
  hwx0_2 : ∀ i : grid0.Coords, EltTy.bits .f32 = 32 ∨ (Rect.block (s := S11x64) S11x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S11x64.size a ≤ S11x64.size a
  hwx0_4 : ∀ i : grid0.Coords, EltTy.bits .f32 = 32 ∨ (Rect.block (s := S11x64) S11x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x1.size a ≤ S100000x1.size a
  hwx1_7 : ∀ i : grid1.Coords, EltTy.bits .f32 = 32 ∨ (Rect.block (s := S100000x1) S4000x1.size (cc1_transform_7 i) (hinb1_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def dot_S4000x11_S11x64_S4000x64_1_0_0_1_n_n : DotDims S4000x11 S11x64 S4000x64 where
  lhsContracting := [1]
  rhsContracting := [0]
  lhsNonContracting := [0]
  rhsNonContracting := [1]
  lhsBatch := []
  rhsBatch := []
  wf := dot_S4000x11_S11x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v24) S4000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S11x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S11x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S4000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x11 : Shape := ⟨2, ![100000, 11]⟩
abbrev S2x3200000 : Shape := ⟨2, ![2, 3200000]⟩
abbrev S64x11 : Shape := ⟨2, ![64, 11]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x11 : Shape := ⟨2, ![3200000, 11]⟩
abbrev S100000 : Shape := ⟨1, ![100000]⟩
abbrev S100000x1 : Shape := ⟨2, ![100000, 1]⟩
abbrev S11x64 : Shape := ⟨2, ![11, 64]⟩
abbrev S100000x64 : Shape := ⟨2, ![100000, 64]⟩
abbrev S3200000x64 : Shape := ⟨2, ![3200000, 64]⟩
abbrev S64x1 : Shape := ⟨2, ![64, 1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S64x11, .f32⟩
  | .hbm, ⟨3, _⟩ => ⟨S64, .f32⟩
  | .hbm, ⟨4, _⟩ => ⟨S64x11, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x11, .f32⟩
  | .hbm, ⟨23, _⟩ => ⟨S_, .f32⟩
  | .hbm, ⟨24, _⟩ => ⟨S100000x11, .f32⟩
  | .hbm, ⟨25, _⟩ => ⟨S3200000x1, .i32⟩
  | .hbm, ⟨26, _⟩ => ⟨S100000x11, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x11, .f32⟩
  | .hbm, ⟨38, _⟩ => ⟨S100000x11, .f32⟩
  | .hbm, ⟨39, _⟩ => ⟨S11x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S11x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x64, .f32⟩
  | .hbm, ⟨59, _⟩ => ⟨S_, .f32⟩
  | .hbm, ⟨60, _⟩ => ⟨S100000x64, .f32⟩
  | .hbm, ⟨61, _⟩ => ⟨S3200000x1, .i32⟩
  | .hbm, ⟨62, _⟩ => ⟨S100000x64, .f32⟩
  | .hbm, ⟨63, _⟩ => ⟨S_, .f32⟩
  | .hbm, ⟨64, _⟩ => ⟨S3200000, .f32⟩
  | .hbm, ⟨65, _⟩ => ⟨S_, .f32⟩
  | .hbm, ⟨66, _⟩ => ⟨S100000, .f32⟩
  | .hbm, ⟨67, _⟩ => ⟨S3200000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x1, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x11 : S_.BroadcastsInDim S100000x11 (![] : Fin 0 → Fin S100000x11.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x11_0_1 : S100000x1.BroadcastsInDim S100000x11 (![0, 1] : Fin 2 → Fin S100000x11.rank)
  transposes_S64x11_S11x64_1_0 : S64x11.Transposes [1, 0] S11x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1
  scatter_S100000_S3200000x1_S3200000_n_0_0_1_wf : ScatterDims.WF S100000 S3200000x1 S3200000 [] [0] [0] 1
  dot_S100000x11_S11x64_S100000x64_1_0_0_1_n_n_wf : DotDims.WF S100000x11 S11x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x11_S11x64_S100000x64_1_0_0_1_n_n : DotDims S100000x11 S11x64 S100000x64 where
  lhsContracting := [1]
  rhsContracting := [0]
  lhsNonContracting := [0]
  rhsNonContracting := [1]
  lhsBatch := []
  rhsBatch := []
  wf := dot_S100000x11_S11x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The dense half of a two-layer mean-aggregating graph convolution, index by index over the extended reals.

  A layer takes the mean-aggregated neighbour features `a` and the node's own features `x` (both [M, K]), two weight
  matrices already transposed to [K, N] and a bias [N], and gives `relu ((a · wl + x · wr) + b)`; the read-out is one more
  product with a [K, N] matrix plus a bias. They are stated at a row `p` and a column `o`, each product as the sum over the
  contracted coordinate, so that a row block of the result is the same expression of the same row block of `a` and `x`.

  The one law that joins a product with a reciprocal to a quotient: the extended reals' quotient by a nonzero `c` is the
  product with `c⁻¹`, and `1 / c` is `c⁻¹`; a count raised to at least one is never zero.
-/
import Idealize.ShloMosaic.PureOps.Ideal.Laws
import Idealize.ShloMosaic.Lib.ValueIdx

noncomputable section

open scoped BigOperators
open Idealize.ShloMosaic Idealize.ShloMosaic.ValueIdx

namespace Cert.Spec

/-- One layer at row `p`, column `o`: `max (((∑ k, a p k · wl k o) + (∑ k, x p k · wr k o)) + b o) 0`. -/
def sageAt {M K N : ℕ} (a x : FVec Ideal ⟨2, ![M, K]⟩ .f32) (wl wr : FVec Ideal ⟨2, ![K, N]⟩ .f32)
    (b : FVec Ideal ⟨1, ![N]⟩ .f32) (p : Fin M) (o : Fin N) : EReal :=
  max (((∑ k : Fin K, a (ix2 p k) * wl (ix2 k o)) + (∑ k : Fin K, x (ix2 p k) * wr (ix2 k o))) + b (ix1 o)) 0

/-- One layer as an array. -/
def sage {M K N : ℕ} (a x : FVec Ideal ⟨2, ![M, K]⟩ .f32) (wl wr : FVec Ideal ⟨2, ![K, N]⟩ .f32)
    (b : FVec Ideal ⟨1, ![N]⟩ .f32) : FVec Ideal ⟨2, ![M, N]⟩ .f32 :=
  fun i => sageAt a x wl wr b (i 0) (i 1)

theorem sage_ix2 {M K N : ℕ} (a x : FVec Ideal ⟨2, ![M, K]⟩ .f32) (wl wr : FVec Ideal ⟨2, ![K, N]⟩ .f32)
    (b : FVec Ideal ⟨1, ![N]⟩ .f32) (p : Fin M) (o : Fin N) : sage a x wl wr b (ix2 p o) = sageAt a x wl wr b p o := rfl

/-- The read-out at row `p`, column `o`: `(∑ k, h p k · w k o) + b o`. -/
def linAt {M K N : ℕ} (h : FVec Ideal ⟨2, ![M, K]⟩ .f32) (w : FVec Ideal ⟨2, ![K, N]⟩ .f32)
    (b : FVec Ideal ⟨1, ![N]⟩ .f32) (p : Fin M) (o : Fin N) : EReal :=
  (∑ k : Fin K, h (ix2 p k) * w (ix2 k o)) + b (ix1 o)

/-- The read-out as an array. -/
def lin {M K N : ℕ} (h : FVec Ideal ⟨2, ![M, K]⟩ .f32) (w : FVec Ideal ⟨2, ![K, N]⟩ .f32)
    (b : FVec Ideal ⟨1, ![N]⟩ .f32) : FVec Ideal ⟨2, ![M, N]⟩ .f32 :=
  fun i => linAt h w b (i 0) (i 1)

theorem lin_ix2 {M K N : ℕ} (h : FVec Ideal ⟨2, ![M, K]⟩ .f32) (w : FVec Ideal ⟨2, ![K, N]⟩ .f32)
    (b : FVec Ideal ⟨1, ![N]⟩ .f32) (p : Fin M) (o : Fin N) : lin h w b (ix2 p o) = linAt h w b p o := rfl

/-- A product with the reciprocal `1 / c` is the quotient by `c`, for every extended real `x` and every `c ≠ 0`. -/
theorem mul_div_one (x c : EReal) (hc : c ≠ 0) : x * Ideal.div 1 c = Ideal.div x c := by
  rw [Ideal.div, if_neg hc, Ideal.div, if_neg hc, one_mul]

/-- A value raised to at least one is not zero. -/
theorem max_one_ne_zero (n : EReal) : max n 1 ≠ 0 :=
  ne_of_gt (lt_of_lt_of_le zero_lt_one (le_max_right n 1))

/-- The word of the float one denotes one. -/
theorem ofBits_one : Ideal.ofBits .f32 0x3F800000#32 = 1 := by
  simp [Ideal.ofBits, Ideal.ieee, -EReal.coe_mul]; norm_num

end Cert.Spec

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Region0.lean ====
/-
  The first layer, block by block.

  The first layer's output is the [100000, 64] array whose entry at row `r` and column `o` is
  `max (((∑ k, a r k · wl k o) + (∑ k, x r k · wr k o)) + b o) 0`, for the mean-aggregated neighbour features `a` and the
  nodes' own features `x` (both [100000, 11]), the two weights `wl`, `wr` (both [11, 64]) and the bias `b` ([64]).

  The region computes it in 25 row blocks of 4000. At point `t` it holds rows `4000 t … 4000 t + 3999` of `a` and of `x`
  and the whole of `wl`, `wr` and `b`; its body multiplies each feature block by its weight (a sum over the 11 shared
  coordinates, the narrowing of the operands being the identity on the extended reals), adds the two products and the
  bias row, and clamps at zero. Entry `(p, o)` of what it leaves is therefore the layer at row `4000 t + p`, column `o`:
  it depends on row `4000 t + p` of `a` and of `x` alone. That block is written back to rows `4000 t … 4000 t + 3999` of
  the output; row `r` lies in the block of point `r / 4000`, so the 25 blocks cover the array, and the array ends at the
  layer of the arrays the region found.
-/
import proofs.«112808_j6554120093875_1_alg».proof.Proof.Gen.KernelIdeal.Frame
import proofs.«112808_j6554120093875_1_alg».proof.Proof.Spec
import proofs.«112808_j6554120093875_1_alg».proof.Proof.LibPlainMatmul
import Idealize.ShloMosaic.Lib.Pipeline.Value
import Idealize.ShloMosaic.Lib.ValueLayout
import Idealize.ShloMosaic.Lib.Tactic
set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

open Idealize.ShloMosaic.ValueIdx
open scoped BigOperators

/-! ## The body's arithmetic at a row and a column -/

/-- The zero offsets on two axes, as the constant function. -/
theorem zero_offsets2 : (![0, 0] : Fin 2 → Nat) = fun _ => 0 := funext fun a => by fin_cases a <;> rfl

/-- The zero offset on one axis, as the constant function. -/
theorem zero_offsets1 : (![0] : Fin 1 → Nat) = fun _ => 0 := funext fun a => by fin_cases a <;> rfl

/-- The product's left operand is read at the output's row … -/
theorem dot_lhs_row (i : S4000x64.Idx) (q : dot_S4000x11_S11x64_S4000x64_1_0_0_1_n_n.contr.Idx) :
    (dot_S4000x11_S11x64_S4000x64_1_0_0_1_n_n.lhsIdx i q 0).val = (i 0).val := by
  unfold DotDims.lhsIdx
  rw [dif_neg (show ¬(0 : Fin S4000x11.rank) ∈ dot_S4000x11_S11x64_S4000x64_1_0_0_1_n_n.lhsBatch by decide), dif_pos (show (0 : Fin S4000x11.rank) ∈ dot_S4000x11_S11x64_S4000x64_1_0_0_1_n_n.lhsNonContracting by decide)]
  rfl

/-- … and at the contracted coordinate; -/
theorem dot_lhs_contr (i : S4000x64.Idx) (q : dot_S4000x11_S11x64_S4000x64_1_0_0_1_n_n.contr.Idx) :
    (dot_S4000x11_S11x64_S4000x64_1_0_0_1_n_n.lhsIdx i q 1).val = (q ⟨0, by decide⟩).val :=
  dot_S4000x11_S11x64_S4000x64_1_0_0_1_n_n.lhsIdx_val_of_single rfl i q

/-- the right operand at the contracted coordinate … -/
theorem dot_rhs_contr (i : S4000x64.Idx) (q : dot_S4000x11_S11x64_S4000x64_1_0_0_1_n_n.contr.Idx) :
    (dot_S4000x11_S11x64_S4000x64_1_0_0_1_n_n.rhsIdx i q 0).val = (q ⟨0, by decide⟩).val :=
  dot_S4000x11_S11x64_S4000x64_1_0_0_1_n_n.rhsIdx_val_of_single rfl i q

/-- … and at the output's column. -/
theorem dot_rhs_col (i : S4000x64.Idx) (q : dot_S4000x11_S11x64_S4000x64_1_0_0_1_n_n.contr.Idx) :
    (dot_S4000x11_S11x64_S4000x64_1_0_0_1_n_n.rhsIdx i q 1).val = (i 1).val := by
  unfold DotDims.rhsIdx
  rw [dif_neg (show ¬(1 : Fin S11x64.rank) ∈ dot_S4000x11_S11x64_S4000x64_1_0_0_1_n_n.rhsBatch by decide), dif_pos (show (1 : Fin S11x64.rank) ∈ dot_S4000x11_S11x64_S4000x64_1_0_0_1_n_n.rhsNonContracting by decide)]
  rfl

/-- A [4000, 11] block times an [11, 64] weight, accumulated into zero, at `(p, o)`: `∑ k, A (p, k) · B (k, o)`. -/
theorem block_product (A : FVec Ideal S4000x11 .bf16) (B : FVec Ideal S11x64 .bf16) (p : Fin 4000) (o : Fin 64) :
    matmul dot_S4000x11_S11x64_S4000x64_1_0_0_1_n_n none A B (constant (F := Ideal) S4000x64 .f32 0x00000000#32) (ix2 p o)
      = ∑ k : Fin 11, A (ix2 p k) * B (ix2 k o) :=
  Cert.LibPlainMatmul.matmul_zero_apply dot_S4000x11_S11x64_S4000x64_1_0_0_1_n_n none rfl rfl
    dot_lhs_row dot_lhs_contr dot_rhs_contr dot_rhs_col A B p o

/-- The body's arithmetic at `(p, o)` is the layer of the loaded blocks at row `p`, column `o`: the same-shape casts and
    the narrowing are the identity, each product is its sum over the 11 shared coordinates, the bias is broadcast along
    the rows, and the float zero denotes zero. -/
theorem payload_apply (x0 x1 : Vec Ideal S4000x11 .f32) (x2 x4 : Vec Ideal S11x64 .f32) (x3 : Vec Ideal S64 .f32)
    (p : Fin 4000) (o : Fin 64) :
    k0_pay1 (F := Ideal) x0 x1 x2 x4 x3 (ix2 p o) = Cert.Spec.sageAt x0 x1 x2 x4 x3 p o := by
  unfold k0_pay1 Cert.Spec.sageAt
  simp only [maximumf_apply, addf_apply, broadcast_apply, block_product, truncf_apply, shapeCast_self]
  rw [broadcastTo_1b_ab_apply, shapeCast_a_1a_apply]
  show max _ (Ideal.ofBits .f32 0x00000000#32) = _
  rw [Ideal.ofBits_zero_f32]

/-! ## The windows' blocks as parts of their arrays -/

/-- The printed index maps over the grid: the two row-blocked inputs and the output sit at block row `t`, column
    block 0; the weights and the bias are fetched whole, at block index 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is a row of the array: `4000 t + p < 100000` for `t < 25`. -/
theorem grid_row_lt (t : Fin cfg0.N) (p : Fin 4000) : t.val * 4000 + p.val < 100000 := by
  have h : t.val < 25 := lt_of_lt_of_eq t.isLt N_0
  have hp := p.isLt
  omega

/-- Row `p` of the aggregated-features block at point `t` is row `4000 t + p` of the array. -/
theorem agg_block_apply (c : Dev nD) (t : Fin cfg0.N) (p : Fin 4000) (k : Fin 11) :
    (iblk0 V c 0 t : Vec Ideal S4000x11 .f32) (ix2 p k)
      = (V c main_v24 : S100000x11.Idx → Ideal .f32) (ix2 ⟨t.val * 4000 + p.val, grid_row_lt t p⟩ k) := by
  obtain ⟨e0, e1, -⟩ := block_indices t
  unfold iblk0
  rw [View.read_apply]
  show V c main_v24 (((cfg0.win 0).blk t).view.emb (ix2 p k)) = V c main_v24 _
  congr 1
  funext a
  apply Fin.ext
  match a with
  | ⟨0, _⟩ => show win0_0.index t (0 : Fin 2) * 4000 + 1 * p.val = t.val * 4000 + p.val; rw [e0]; omega
  | ⟨1, _⟩ => show win0_0.index t (1 : Fin 2) * 11 + 1 * k.val = k.val; rw [e1]; omega

/-- Row `p` of the node-features block at point `t` is row `4000 t + p` of the array. -/
theorem self_block_apply (c : Dev nD) (t : Fin cfg0.N) (p : Fin 4000) (k : Fin 11) :
    (iblk0 V c 1 t : Vec Ideal S4000x11 .f32) (ix2 p k)
      = (V c main_arg0 : S100000x11.Idx → Ideal .f32) (ix2 ⟨t.val * 4000 + p.val, grid_row_lt t p⟩ k) := by
  obtain ⟨-, -, e0, e1, -⟩ := block_indices t
  unfold iblk0
  rw [View.read_apply]
  show V c main_arg0 (((cfg0.win 1).blk t).view.emb (ix2 p k)) = V c main_arg0 _
  congr 1
  funext a
  apply Fin.ext
  match a with
  | ⟨0, _⟩ => show win0_1.index t (0 : Fin 2) * 4000 + 1 * p.val = t.val * 4000 + p.val; rw [e0]; omega
  | ⟨1, _⟩ => show win0_1.index t (1 : Fin 2) * 11 + 1 * k.val = k.val; rw [e1]; omega

/-- The left weight's block is the whole array, at every point. -/
theorem wl_block (c : Dev nD) (t : Fin cfg0.N) :
    (iblk0 V c 2 t : Vec Ideal S11x64 .f32) = (V c main_v25 : S11x64.Idx → Ideal .f32) := by
  obtain ⟨-, -, -, -, e0, e1, -⟩ := block_indices t
  funext j
  unfold iblk0
  rw [View.read_apply]
  show V c main_v25 (((cfg0.win 2).blk t).view.emb j) = V c main_v25 j
  congr 1
  funext a
  apply Fin.ext
  match a with
  | ⟨0, _⟩ => show win0_2.index t (0 : Fin 2) * 11 + 1 * (j 0).val = (j 0).val; rw [e0]; omega
  | ⟨1, _⟩ => show win0_2.index t (1 : Fin 2) * 64 + 1 * (j 1).val = (j 1).val; rw [e1]; omega

/-- The bias's block is the whole array, at every point. -/
theorem bias_block (c : Dev nD) (t : Fin cfg0.N) :
    (iblk0 V c 3 t : Vec Ideal S64 .f32) = (V c main_arg3 : S64.Idx → Ideal .f32) := by
  obtain ⟨-, -, -, -, -, -, e0, -⟩ := block_indices t
  funext j
  unfold iblk0
  rw [View.read_apply]
  show V c main_arg3 (((cfg0.win 3).blk t).view.emb j) = V c main_arg3 j
  congr 1
  funext a
  apply Fin.ext
  match a with
  | ⟨0, _⟩ => show win0_3.index t (0 : Fin 1) * 64 + 1 * (j 0).val = (j 0).val; rw [e0]; omega

/-- The right weight's block is the whole array, at every point. -/
theorem wr_block (c : Dev nD) (t : Fin cfg0.N) :
    (iblk0 V c 4 t : Vec Ideal S11x64 .f32) = (V c main_v26 : S11x64.Idx → Ideal .f32) := by
  obtain ⟨-, -, -, -, -, -, -, e0, e1, -⟩ := block_indices t
  funext j
  unfold iblk0
  rw [View.read_apply]
  show V c main_v26 (((cfg0.win 4).blk t).view.emb j) = V c main_v26 j
  congr 1
  funext a
  apply Fin.ext
  match a with
  | ⟨0, _⟩ => show win0_4.index t (0 : Fin 2) * 11 + 1 * (j 0).val = (j 0).val; rw [e0]; omega
  | ⟨1, _⟩ => show win0_4.index t (1 : Fin 2) * 64 + 1 * (j 1).val = (j 1).val; rw [e1]; omega

/-! ## What a point writes back -/

/-- The body's one store covers its buffer, and its loads read whole buffers: the buffer ends at the payload of the
    input blocks. -/
theorem out_eq_payload (x0 x1 : Vec Ideal S4000x11 .f32) (x2 : Vec Ideal S11x64 .f32) (x3 : Vec Ideal S64 .f32)
    (x4 : Vec Ideal S11x64 .f32) : out0_5 x0 x1 x2 x3 x4 = k0_pay1 (F := Ideal) x0 x1 x2 x4 x3 := by
  unfold out0_5
  rw [View.canon_unit_zero zero_offsets2]
  simp only [View.ld_unit_zero (S := S4000x11) zero_offsets2, View.ld_unit_zero (S := S11x64) zero_offsets2,
    View.ld_unit_zero (S := S64) zero_offsets1]

/-- The layer at a row depends on that row of the two feature arrays only. -/
theorem sageAt_of_rows {M M' K N : ℕ} (a x : FVec Ideal ⟨2, ![M, K]⟩ .f32) (a' x' : FVec Ideal ⟨2, ![M', K]⟩ .f32)
    (wl wr : FVec Ideal ⟨2, ![K, N]⟩ .f32) (b : FVec Ideal ⟨1, ![N]⟩ .f32) (p : Fin M) (r : Fin M') (o : Fin N)
    (ha : ∀ k, a (ix2 p k) = a' (ix2 r k)) (hx : ∀ k, x (ix2 p k) = x' (ix2 r k)) :
    Cert.Spec.sageAt a x wl wr b p o = Cert.Spec.sageAt a' x' wl wr b r o := by
  unfold Cert.Spec.sageAt
  simp only [ha, hx]

/-- Element `(p, o)` of the output's block at point `t` sits at `(4000 t + p, o)` in the array. -/
theorem out_block_emb (t : Fin cfg0.N) (p : Fin 4000) (o : Fin 64) :
    (((cfg0.win 5).blk t).view.emb (ix2 p o) : S100000x64.Idx) = ix2 ⟨t.val * 4000 + p.val, grid_row_lt t p⟩ o := by
  obtain ⟨-, -, -, -, -, -, -, -, -, e0, e1⟩ := block_indices t
  funext a
  apply Fin.ext
  match a with
  | ⟨0, _⟩ => show win0_5.index t (0 : Fin 2) * 4000 + 1 * p.val = t.val * 4000 + p.val; rw [e0]; omega
  | ⟨1, _⟩ => show win0_5.index t (1 : Fin 2) * 64 + 1 * o.val = o.val; rw [e1]; omega

/-- What point `t` writes back is block `t` of the layer's array. -/
theorem flushed_eq (c : Dev nD) (t : Fin cfg0.N) :
    (dat0 V c).flushed 5 t = ((cfg0.win 5).blk t).view.read (Elt Ideal)
      (Cert.Spec.sage (V c main_v24) (V c main_arg0) (V c main_v25) (V c main_v26) (V c main_arg3)) := by
  show (cfg0.win 5).cut (grid0.coords t) ((dat0 V c).after 5 t) = _
  rw [after0_5, out_eq_payload, wl_block, bias_block, wr_block]
  funext j
  obtain ⟨p, o, rfl⟩ : ∃ (p : Fin 4000) (o : Fin 64), j = ix2 p o := ⟨j 0, j 1, eq_ix2 j⟩
  rw [View.read_apply, out_block_emb, Cert.Spec.sage_ix2]
  show k0_pay1 (F := Ideal) (iblk0 V c 0 t) (iblk0 V c 1 t) (V c main_v25) (V c main_v26) (V c main_arg3) (ix2 p o) = _
  rw [payload_apply]
  exact sageAt_of_rows _ _ _ _ _ _ _ p _ o (agg_block_apply V c t p) (self_block_apply V c t p)

/-! ## The blocks cover the array -/

/-- Row `r` of the output is in the block of point `r / 4000`. -/
theorem rows_covered (c : Dev nD) (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨-, -, -, -, -, -, -, -, -, e0, e1⟩ := block_indices t
  have ht : t.val = (i 0).val / 4000 := rfl
  refine ⟨t, flush0_5 t, ?_⟩
  show i ∈ ((View.whole main_v27).slice (win0_5.rect t)).set
  rw [View.set_slice_whole, Rect.mem_set_unit]
  intro a
  match a with
  | ⟨0, _⟩ =>
    show win0_5.index t (0 : Fin 2) * 4000 ≤ (i 0).val ∧ (i 0).val < win0_5.index t (0 : Fin 2) * 4000 + 4000
    rw [e0, ht]; omega
  | ⟨1, _⟩ =>
    show win0_5.index t (1 : Fin 2) * 64 ≤ (i 1).val ∧ (i 1).val < win0_5.index t (1 : Fin 2) * 64 + 64
    rw [e1]; omega

/-! ## The array after the region -/

/-- After the region the output array is the layer of the region's input arrays: every point writes back its block of
    that array and the blocks cover it. -/
theorem region0_value (c : Dev nD) :
    (dat0 V c).arrAt 5 cfg0.N
      = Cert.Spec.sage (V c main_v24) (V c main_arg0) (V c main_v25) (V c main_v26) (V c main_arg3) := by
  exact (dat0 V c).arrAt_eq_of_cover 5 _ (fun t _ => flushed_eq V c t) (rows_covered c)

end Cert.KernelIdeal.Hand
end
-- ==== Proof.Region1.lean ====
/-
  The second region of the two-layer mean-aggregating graph convolution, block by block.

  The region walks the 100000 rows in 25 blocks of 4000. At point t its body loads block t of the aggregated features
  and block t of the first layer's output (rows 4000 t … 4000 t + 3999 of each) and the whole of the five small arrays
  (the two [64, 64] weights, the [64] bias, the [64, 1] read-out matrix and its [1] bias), and stores, for those rows,
  max ((a · wl + x · wr) + b) 0 · w + b': the layer, then the read-out. Row p of that block is a function of row p of
  the two loaded feature blocks and of the small arrays only; row p of block t is row 4000 t + p of the array. So what
  point t writes back is block t of the read-out of the layer of the whole arrays; row r lies in block r / 4000, so the
  25 blocks cover the result array, and it ends holding that read-out.
-/
import proofs.«112808_j6554120093875_1_alg».proof.Proof.Gen.KernelIdeal.Frame
import proofs.«112808_j6554120093875_1_alg».proof.Proof.Spec
import proofs.«112808_j6554120093875_1_alg».proof.Proof.LibPlainMatmul
import Idealize.ShloMosaic.Lib.Pipeline.Value
import Idealize.ShloMosaic.Lib.ValueLayout
import Idealize.ShloMosaic.Lib.Tactic
set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

open Idealize.ShloMosaic.ValueIdx

/-! ## The two products' index maps -/

theorem r1_lhs_hid_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem r1_lhs_hid_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem r1_rhs_hid_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem r1_rhs_hid_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

theorem r1_lhs_out_0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem r1_lhs_out_1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem r1_rhs_out_0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem r1_rhs_out_1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- A [4000, 64] by [64, 64] product into zero, at row p and column k. -/
theorem r1_matmul_hid (A : FVec Ideal S4000x64 .bf16) (B : FVec Ideal S64x64 .bf16) (p : Fin 4000) (k : Fin 64) :
    matmul dot_S4000x64_S64x64_S4000x64_1_0_0_1_n_n none A B (constant (F := Ideal) S4000x64 .f32 0x00000000#32) (ix2 p k)
      = ∑ j : Fin 64, A (ix2 p j) * B (ix2 j k) :=
  Cert.LibPlainMatmul.matmul_zero_apply dot_S4000x64_S64x64_S4000x64_1_0_0_1_n_n none rfl rfl
    r1_lhs_hid_0 r1_lhs_hid_1 r1_rhs_hid_0 r1_rhs_hid_1 A B p k

/-- A [4000, 64] by [64, 1] product into zero, at row p and column o. -/
theorem r1_matmul_out (A : FVec Ideal S4000x64 .bf16) (B : FVec Ideal S64x1 .bf16) (p : Fin 4000) (o : Fin 1) :
    matmul dot_S4000x64_S64x1_S4000x1_1_0_0_1_n_n none A B (constant (F := Ideal) S4000x1 .f32 0x00000000#32) (ix2 p o)
      = ∑ j : Fin 64, A (ix2 p j) * B (ix2 j o) :=
  Cert.LibPlainMatmul.matmul_zero_apply dot_S4000x64_S64x1_S4000x1_1_0_0_1_n_n none rfl rfl
    r1_lhs_out_0 r1_lhs_out_1 r1_rhs_out_0 r1_rhs_out_1 A B p o

/-! ## The body's result at an index -/

/-- The body's result at row p and column o is the read-out, at (p, o), of the layer of its loaded blocks. -/
theorem r1_pay (x0 x1 : Vec Ideal S4000x64 .f32) (x2 x4 : Vec Ideal S64x64 .f32) (x3 : Vec Ideal S64 .f32)
    (x5 : Vec Ideal S64x1 .f32) (x6 : Vec Ideal S1 .f32) (p : Fin 4000) (o : Fin 1) :
    (k1_pay1 (F := Ideal) x0 x1 x2 x4 x3 x5 x6 : FVec Ideal S4000x1 .f32) (ix2 p o)
      = Cert.Spec.linAt (Cert.Spec.sage x0 x1 x2 x4 x3) x5 x6 p o := by
  unfold k1_pay1
  rw [addf_apply, r1_matmul_out]
  unfold Cert.Spec.linAt
  congr 1
  · refine Finset.sum_congr rfl fun k _ => ?_
    congr 1
    · rw [truncf_apply, maximumf_apply, addf_apply, addf_apply, r1_matmul_hid, r1_matmul_hid, Cert.Spec.sage_ix2]
      unfold Cert.Spec.sageAt
      simp only [truncf_apply, shapeCast_self, broadcast_apply]
      rw [broadcastTo_1b_ab_apply, shapeCast_a_1a_apply]
      show max _ (Ideal.ofBits .f32 0x00000000#32) = max _ 0
      rw [Ideal.ofBits_zero_f32]
    · rw [truncf_apply, shapeCast_self]
  · rw [broadcastTo_1b_ab_apply, shapeCast_a_1a_apply]

/-! ## The blocks of the input arrays -/

theorem r1_hz2 : (![0, 0] : Fin 2 → Nat) = fun _ => 0 := funext fun a => by fin_cases a <;> rfl
theorem r1_hz1 : (![0] : Fin 1 → Nat) = fun _ => 0 := funext fun a => by fin_cases a; rfl

/-- The index maps over the grid: a row-blocked window sits at block (t, 0), a whole small array at block 0. -/
theorem r1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Block t of the aggregated features: row p of the block is row t * 4000 + p of the array. -/
theorem r1_blk0 (c : Dev nD) (t : Fin cfg1.N) (p : Fin 4000) (k : Fin 64) (r : Fin 100000) (hr : r.val = t.val * 4000 + p.val) :
    (iblk1 V c 0 t : Vec Ideal S4000x64 .f32) (ix2 p k) = (V c main_v40 : S100000x64.Idx → EReal) (ix2 r k) := by
  unfold iblk1
  rw [View.read_apply]
  show V c main_v40 _ = V c main_v40 _
  congr 1
  funext a
  apply Fin.ext
  match a with
  | ⟨0, _⟩ => show win1_0.index t (0 : Fin 2) * 4000 + 1 * p.val = r.val; rw [(r1_idx t).1, hr]; omega
  | ⟨1, _⟩ => show win1_0.index t (1 : Fin 2) * 64 + 1 * k.val = k.val; rw [(r1_idx t).2.1]; omega

/-- Block t of the node features: row p of the block is row t * 4000 + p of the array. -/
theorem r1_blk1 (c : Dev nD) (t : Fin cfg1.N) (p : Fin 4000) (k : Fin 64) (r : Fin 100000) (hr : r.val = t.val * 4000 + p.val) :
    (iblk1 V c 1 t : Vec Ideal S4000x64 .f32) (ix2 p k) = (V c main_v27 : S100000x64.Idx → EReal) (ix2 r k) := by
  unfold iblk1
  rw [View.read_apply]
  show V c main_v27 _ = V c main_v27 _
  congr 1
  funext a
  apply Fin.ext
  match a with
  | ⟨0, _⟩ => show win1_1.index t (0 : Fin 2) * 4000 + 1 * p.val = r.val; rw [(r1_idx t).2.2.1, hr]; omega
  | ⟨1, _⟩ => show win1_1.index t (1 : Fin 2) * 64 + 1 * k.val = k.val; rw [(r1_idx t).2.2.2.1]; omega

/-- The left weight's one block is the array. -/
theorem r1_blk2 (c : Dev nD) (t : Fin cfg1.N) (j k : Fin 64) :
    (iblk1 V c 2 t : Vec Ideal S64x64 .f32) (ix2 j k) = (V c main_v41 : S64x64.Idx → EReal) (ix2 j k) := by
  unfold iblk1
  rw [View.read_apply]
  show V c main_v41 _ = V c main_v41 _
  congr 1
  funext a
  apply Fin.ext
  match a with
  | ⟨0, _⟩ => show win1_2.index t (0 : Fin 2) * 64 + 1 * j.val = j.val; rw [(r1_idx t).2.2.2.2.1]; omega
  | ⟨1, _⟩ => show win1_2.index t (1 : Fin 2) * 64 + 1 * k.val = k.val; rw [(r1_idx t).2.2.2.2.2.1]; omega

/-- The layer bias's one block is the array. -/
theorem r1_blk3 (c : Dev nD) (t : Fin cfg1.N) (k : Fin 64) :
    (iblk1 V c 3 t : Vec Ideal S64 .f32) (ix1 k) = (V c main_arg6 : S64.Idx → EReal) (ix1 k) := by
  unfold iblk1
  rw [View.read_apply]
  show V c main_arg6 _ = V c main_arg6 _
  congr 1
  funext a
  apply Fin.ext
  match a with
  | ⟨0, _⟩ => show win1_3.index t (0 : Fin 1) * 64 + 1 * k.val = k.val; rw [(r1_idx t).2.2.2.2.2.2.1]; omega

/-- The right weight's one block is the array. -/
theorem r1_blk4 (c : Dev nD) (t : Fin cfg1.N) (j k : Fin 64) :
    (iblk1 V c 4 t : Vec Ideal S64x64 .f32) (ix2 j k) = (V c main_v42 : S64x64.Idx → EReal) (ix2 j k) := by
  unfold iblk1
  rw [View.read_apply]
  show V c main_v42 _ = V c main_v42 _
  congr 1
  funext a
  apply Fin.ext
  match a with
  | ⟨0, _⟩ => show win1_4.index t (0 : Fin 2) * 64 + 1 * j.val = j.val; rw [(r1_idx t).2.2.2.2.2.2.2.1]; omega
  | ⟨1, _⟩ => show win1_4.index t (1 : Fin 2) * 64 + 1 * k.val = k.val; rw [(r1_idx t).2.2.2.2.2.2.2.2.1]; omega

/-- The read-out matrix's one block is the array. -/
theorem r1_blk5 (c : Dev nD) (t : Fin cfg1.N) (k : Fin 64) (o : Fin 1) :
    (iblk1 V c 5 t : Vec Ideal S64x1 .f32) (ix2 k o) = (V c main_v43 : S64x1.Idx → EReal) (ix2 k o) := by
  unfold iblk1
  rw [View.read_apply]
  show V c main_v43 _ = V c main_v43 _
  congr 1
  funext a
  apply Fin.ext
  match a with
  | ⟨0, _⟩ => show win1_5.index t (0 : Fin 2) * 64 + 1 * k.val = k.val; rw [(r1_idx t).2.2.2.2.2.2.2.2.2.1]; omega
  | ⟨1, _⟩ => show win1_5.index t (1 : Fin 2) * 1 + 1 * o.val = o.val; rw [(r1_idx t).2.2.2.2.2.2.2.2.2.2.1]; omega

/-- The read-out bias's one block is the array. -/
theorem r1_blk6 (c : Dev nD) (t : Fin cfg1.N) (o : Fin 1) :
    (iblk1 V c 6 t : Vec Ideal S1 .f32) (ix1 o) = (V c main_arg9 : S1.Idx → EReal) (ix1 o) := by
  unfold iblk1
  rw [View.read_apply]
  show V c main_arg9 _ = V c main_arg9 _
  congr 1
  funext a
  apply Fin.ext
  match a with
  | ⟨0, _⟩ => show win1_6.index t (0 : Fin 1) * 1 + 1 * o.val = o.val; rw [(r1_idx t).2.2.2.2.2.2.2.2.2.2.2.1]; omega

/-! ## What a point writes back, and the array after the last point -/

/-- The read-out of the second layer over the whole arrays: what the result array ends holding. -/
abbrev r1_G (c : Dev nD) : FVec Ideal S100000x1 .f32 :=
  Cert.Spec.lin (Cert.Spec.sage (V c main_v40) (V c main_v27) (V c main_v41) (V c main_v42) (V c main_arg6))
    (V c main_v43) (V c main_arg9)

/-- Row p of the result's block t is row t * 4000 + p of the result array. -/
theorem r1_emb7 (t : Fin cfg1.N) (p : Fin 4000) (o : Fin 1) (r : Fin 100000) (hr : r.val = t.val * 4000 + p.val) :
    ((cfg1.win 7).blk t).view.emb (ix2 p o) = (ix2 r o : S100000x1.Idx) := by
  funext a
  apply Fin.ext
  match a with
  | ⟨0, _⟩ => show win1_7.index t (0 : Fin 2) * 4000 + 1 * p.val = r.val; rw [(r1_idx t).2.2.2.2.2.2.2.2.2.2.2.2.1, hr]; omega
  | ⟨1, _⟩ => show win1_7.index t (1 : Fin 2) * 1 + 1 * o.val = o.val; rw [(r1_idx t).2.2.2.2.2.2.2.2.2.2.2.2.2]; omega

/-- What point t writes back is block t of the read-out of the whole arrays: a row of the read-out depends on the same
    row of the aggregated and the node features only, and on the whole of the small arrays. -/
theorem r1_flushed (c : Dev nD) (t : Fin cfg1.N) :
    (dat1 V c).flushed 7 t = ((cfg1.win 7).blk t).view.read (Elt Ideal) (r1_G V c) := by
  show (cfg1.win 7).cut (grid1.coords t) ((dat1 V c).after 7 t) = _
  rw [after1_7]
  unfold out1_7
  rw [View.canon_unit_zero r1_hz2]
  simp only [View.ld_unit_zero (S := S4000x64) r1_hz2, View.ld_unit_zero (S := S64x64) r1_hz2,
    View.ld_unit_zero (S := S64) r1_hz1, View.ld_unit_zero (S := S64x1) r1_hz2, View.ld_unit_zero (S := S1) r1_hz1]
  funext y
  obtain ⟨p, o, rfl⟩ : ∃ (p : Fin 4000) (o : Fin 1), y = ix2 p o := ⟨y 0, y 1, eq_ix2 y⟩
  have hN : cfg1.N = 25 := N_1
  have hr : t.val * 4000 + p.val < 100000 := by have := t.isLt; have := p.isLt; omega
  rw [View.read_apply]
  show (k1_pay1 (F := Ideal) (iblk1 V c 0 t) (iblk1 V c 1 t) (iblk1 V c 2 t) (iblk1 V c 4 t) (iblk1 V c 3 t) (iblk1 V c 5 t)
        (iblk1 V c 6 t) : FVec Ideal S4000x1 .f32) (ix2 p o) = r1_G V c (((cfg1.win 7).blk t).view.emb (ix2 p o))
  rw [r1_pay, r1_emb7 t p o ⟨t.val * 4000 + p.val, hr⟩ rfl]
  show Cert.Spec.linAt _ _ _ p o = Cert.Spec.linAt _ _ _ ⟨t.val * 4000 + p.val, hr⟩ o
  unfold Cert.Spec.linAt
  simp only [r1_blk6 V c t, r1_blk5 V c t, Cert.Spec.sage_ix2]
  unfold Cert.Spec.sageAt
  simp only [r1_blk0 V c t p _ ⟨t.val * 4000 + p.val, hr⟩ rfl, r1_blk1 V c t p _ ⟨t.val * 4000 + p.val, hr⟩ rfl,
    r1_blk2 V c t, r1_blk3 V c t, r1_blk4 V c t]

/-- Every row of the result array is in some point's block: row r is in block r / 4000. -/
theorem r1_cover (i : S100000x1.Idx) :
    ∃ t : Fin cfg1.N, (cfg1.win 7).flush t = true ∧ i ∈ ((cfg1.win 7).blk t).view.set := by
  have hN : cfg1.N = 25 := N_1
  have hi0 : (i 0).val < 100000 := (i 0).isLt
  have hi1 : (i 1).val < 1 := (i 1).isLt
  have ht : (i 0).val / 4000 < cfg1.N := by rw [hN]; omega
  refine ⟨⟨(i 0).val / 4000, ht⟩, flush1_7 _, ?_⟩
  show i ∈ ((View.whole main_v44).slice (win1_7.rect ⟨(i 0).val / 4000, ht⟩)).set
  rw [View.set_slice_whole, Rect.mem_set_unit]
  have e0 := (r1_idx ⟨(i 0).val / 4000, ht⟩).2.2.2.2.2.2.2.2.2.2.2.2.1
  have e1 := (r1_idx ⟨(i 0).val / 4000, ht⟩).2.2.2.2.2.2.2.2.2.2.2.2.2
  intro a
  match a with
  | ⟨0, _⟩ =>
    show win1_7.index ⟨(i 0).val / 4000, ht⟩ (0 : Fin 2) * 4000 ≤ (i 0).val
      ∧ (i 0).val < win1_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, ht⟩ (1 : Fin 2) * 1 ≤ (i 1).val
      ∧ (i 1).val < win1_7.index ⟨(i 0).val / 4000, ht⟩ (1 : Fin 2) * 1 + 1
    rw [e1]; omega

/-- The second region's result array after the last point is the read-out of the second layer of the arrays as the
    region finds them: each point writes its block of that array function, and the 25 blocks cover the 100000 rows. -/
theorem region1_value (c : Dev nD) :
    (dat1 V c).arrAt 7 cfg1.N
      = Cert.Spec.lin (Cert.Spec.sage (V c main_v40) (V c main_v27) (V c main_v41) (V c main_v42) (V c main_arg6))
          (V c main_v43) (V c main_arg9) := by
  exact (dat1 V c).arrAt_eq_of_cover 7 (r1_G V c) (fun t _ => r1_flushed V c t) r1_cover

end Cert.KernelIdeal.Hand

end
-- ==== Proof.HostDefs.lean ====
/-
  The host side of the mean aggregation, as functions of the node features and the edge list.

  An edge list `e` of shape [2, E] holds the source node of each edge in row 0 and the destination in row 1. The
  aggregation gathers each edge's source row of the features (a negative source is counted from the end), adds it into
  the destination's row of a zero array, and multiplies row `n` by `1 / max (cnt n) 1`, where `cnt n` is the number of
  edges that end at `n`, itself a sum of ones scattered by destination.
-/
import proofs.«112808_j6554120093875_1_alg».proof.Proof.Gen.KernelIdeal

noncomputable section

open Idealize.ShloMosaic Idealize.SL.Sem

namespace Cert.KernelIdeal.Hand

open Cert.KernelIdeal Cert.KernelIdeal.Gen

variable {F : FTy → Type} [FloatOps F]

/-- Row 1 of the edge list, as the column of scatter indices: the destination of each edge. -/
def dstI (e : (⟨S2x3200000, .i32⟩ : BufTy).Contents (Elt F)) : (⟨S3200000x1, .i32⟩ : BufTy).Contents (Elt F) :=
  broadcastInDim S3200000x1 ![0] bcast_S3200000_S3200000x1_0
    (shapeCast _ (extractStridedSlice S1x3200000 ![1, 0] e slices_S2x3200000_S1x3200000_1_0) shapeCasts_S1x3200000_S3200000)

/-- Row 0 of the edge list: the source of each edge, as given. -/
def srcRow (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The source of each edge as the column of gather indices, a negative one counted from the end. -/
def srcI (e : (⟨S2x3200000, .i32⟩ : BufTy).Contents (Elt F)) : (⟨S3200000x1, .i32⟩ : BufTy).Contents (Elt F) :=
  broadcastInDim S3200000x1 ![0] bcast_S3200000_S3200000x1_0
    (select (cmpi .slt (srcRow (F := F) e) (broadcastInDim S3200000 ![] bcast_S_S3200000 (constantI S_ 32 0#32)))
      (addi (srcRow (F := F) e) (broadcastInDim S3200000 ![] bcast_S_S3200000 (constantI S_ 32 100000#32)))
      (srcRow (F := F) e))

/-- How many edges end at each node: ones added by destination into zeros. -/
def cntK (e : (⟨S2x3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32))
    (dstI (F := F) e)
    (broadcastInDim S3200000 ![] bcast_S_S3200000 (constant S_ .f32 0x3F800000#32))

/-- The count raised to at least one. -/
def cntMax (e : (⟨S2x3200000, .i32⟩ : BufTy).Contents (Elt F)) : (⟨S100000, .f32⟩ : BufTy).Contents (Elt F) :=
  maximumf (cntK e) (broadcastInDim S100000 ![] bcast_S_S100000 (constant S_ .f32 0x3F800000#32))

/-- `1 / max cnt 1`, per node. -/
def rcpK (e : (⟨S2x3200000, .i32⟩ : BufTy).Contents (Elt F)) : (⟨S100000, .f32⟩ : BufTy).Contents (Elt F) :=
  Host.divf (broadcastInDim S100000 ![] bcast_S_S100000 (constant S_ .f32 0x3F800000#32)) (cntMax e)

/-- The neighbour sum of 11-wide features: each edge's source row added into its destination's row. -/
def sum11 (x : (⟨S100000x11, .f32⟩ : BufTy).Contents (Elt F)) (e : (⟨S2x3200000, .i32⟩ : BufTy).Contents (Elt F)) :
    (⟨S100000x11, .f32⟩ : BufTy).Contents (Elt F) :=
  Host.scatterAdd scatter_S100000x11_S3200000x1_S3200000x11_1_0_0_1
    (broadcastInDim S100000x11 ![] bcast_S_S100000x11 (constant S_ .f32 0x00000000#32))
    (dstI (F := F) e)
    (Host.gather gather_S100000x11_S3200000x1_S3200000x11_1_0_n_n_0_1_111 x (srcI (F := F) e))

/-- The neighbour mean of 11-wide features, as the kernel's program forms it: the sum times the reciprocal count. -/
def mean11 (x : (⟨S100000x11, .f32⟩ : BufTy).Contents (Elt F)) (e : (⟨S2x3200000, .i32⟩ : BufTy).Contents (Elt F)) :
    (⟨S100000x11, .f32⟩ : BufTy).Contents (Elt F) :=
  mulf (sum11 x e)
    (broadcastInDim S100000x11 ![0, 1] bcast_S100000x1_S100000x11_0_1
      (broadcastInDim S100000x1 ![0] bcast_S100000_S100000x1_0 (rcpK e)))

/-- The neighbour sum of 64-wide features. -/
def sum64 (x : (⟨S100000x64, .f32⟩ : BufTy).Contents (Elt F)) (e : (⟨S2x3200000, .i32⟩ : BufTy).Contents (Elt F)) :
    (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (dstI (F := F) e)
    (Host.gather gather_S100000x64_S3200000x1_S3200000x64_1_0_n_n_0_1_164 x (srcI (F := F) e))

/-- The neighbour mean of 64-wide features, as the kernel's program forms it. -/
def mean64 (x : (⟨S100000x64, .f32⟩ : BufTy).Contents (Elt F)) (e : (⟨S2x3200000, .i32⟩ : BufTy).Contents (Elt F)) :
    (⟨S100000x64, .f32⟩ : BufTy).Contents (Elt F) :=
  mulf (sum64 x e)
    (broadcastInDim S100000x64 ![0, 1] bcast_S100000x1_S100000x64_0_1
      (broadcastInDim S100000x1 ![0] bcast_S100000_S100000x1_0 (rcpK e)))

end Cert.KernelIdeal.Hand

end
-- ==== Proof.HostRead.lean ====
/-
  What the kernel program's buffers hold at each boundary between the segments of its main function.

  The main function is: a first stretch of host operations; the first layer's kernel region; a second stretch of host
  operations; the second layer's kernel region. Write `x` for the node features (argument 0) and `e` for the edge list
  (argument 1).

  * Entering the first region. The first stretch leaves the neighbour mean of `x` over `e` (the neighbour sum of the
    11-wide features times the reciprocal of the count raised to at least one) in the buffer the region reads as its
    aggregated input, and the transposes of the two 64 × 11 weight arguments in the buffers the region reads as its
    weights. It writes no argument, so `x` and the bias argument still hold what they held at launch.
  * Leaving the first region. The region's output buffer holds what the pipeline's write-backs leave over all grid
    points; every buffer that is not one of the region's arrays holds what it held on entry.
  * Entering the second region. The second stretch gathers and scatters the first region's output over the same edge
    list. The edge rows and the reciprocal count it uses were computed by the first stretch, in buffers that are not
    arrays of the first region, so they are still the same functions of `e`; hence the aggregated input of the second
    region is the neighbour mean of the first region's output over `e`. The first region's output itself is not written
    again. The three square or column weight arguments arrive transposed, the two bias arguments as launched.
  * Leaving the second region. The result buffer holds what the second pipeline's write-backs leave over all grid points.
-/
import proofs.«112808_j6554120093875_1_alg».proof.Proof.Gen.KernelIdeal.Frame
import proofs.«112808_j6554120093875_1_alg».proof.Proof.HostDefs
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-! Region 0's entry. -/
theorem V1_v24 (c : Dev nD) : V1 m ρ c main_v24 = mean11 (m ((c : Thread nD τ).loc main_arg0)) (m ((c : Thread nD τ).loc main_arg1)) := by
  show StableHlo.after hostOps0 (W0 m ρ c) (Proc.devRef .tc main_v24) = _
  after_results_simp
  rfl
theorem V1_arg0 (c : Dev nD) : V1 m ρ c main_arg0 = m ((c : Thread nD τ).loc main_arg0) := by
  show StableHlo.after hostOps0 (W0 m ρ c) (Proc.devRef .tc main_arg0) = _
  after_results_simp <;> rfl
theorem V1_v25 (c : Dev nD) : V1 m ρ c main_v25 = transpose S11x64 [1, 0] (m ((c : Thread nD τ).loc main_arg2)) transposes_S64x11_S11x64_1_0 := by
  show StableHlo.after hostOps0 (W0 m ρ c) (Proc.devRef .tc main_v25) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_v26 (c : Dev nD) : V1 m ρ c main_v26 = transpose S11x64 [1, 0] (m ((c : Thread nD τ).loc main_arg4)) transposes_S64x11_S11x64_1_0 := by
  show StableHlo.after hostOps0 (W0 m ρ c) (Proc.devRef .tc main_v26) = _
  after_results_simp <;> rfl
/-! Region 0's exit. -/
theorem V2_v27 (c : Dev nD) : V2 m ρ c main_v27 = (dat0 (V1 m ρ) c).arrAt 5 cfg0.N :=
  W2_arr m ρ c 5

/-! Buffers the first stretch computed and the first region does not touch, read at the first region's exit: the source
    row and the destination row of the edge list and the reciprocal count, and the arguments the second stretch reads. -/
theorem hr_W2_v1 (c : Dev nD) : W2 m ρ c (Proc.devRef .tc main_v1) = srcRow (m ((c : Thread nD τ).loc main_arg1)) :=
  (W2_of_ne m ρ c main_v1 (by decide)).trans (by
    show StableHlo.after hostOps0 (W0 m ρ c) (Proc.devRef .tc main_v1) = _
    after_results_simp
    rfl)
theorem hr_W2_v3 (c : Dev nD) : W2 m ρ c (Proc.devRef .tc main_v3) =
    (shapeCast _ (extractStridedSlice S1x3200000 ![1, 0] (m ((c : Thread nD τ).loc main_arg1)) slices_S2x3200000_S1x3200000_1_0)
      shapeCasts_S1x3200000_S3200000 : (⟨S3200000, .i32⟩ : BufTy).Contents (Elt F)) :=
  (W2_of_ne m ρ c main_v3 (by decide)).trans (by
    show StableHlo.after hostOps0 (W0 m ρ c) (Proc.devRef .tc main_v3) = _
    after_results_simp
    rfl)
theorem hr_W2_v11 (c : Dev nD) : W2 m ρ c (Proc.devRef .tc main_v11) = rcpK (m ((c : Thread nD τ).loc main_arg1)) :=
  (W2_of_ne m ρ c main_v11 (by decide)).trans (by
    show StableHlo.after hostOps0 (W0 m ρ c) (Proc.devRef .tc main_v11) = _
    after_results_simp
    rfl)
theorem hr_W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)
theorem hr_W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
theorem hr_W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)
theorem hr_W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)
theorem hr_W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)

/-! Region 1's entry. -/
theorem V3_v40 (c : Dev nD) : V3 m ρ c main_v40 = mean64 (V2 m ρ c main_v27) (m ((c : Thread nD τ).loc main_arg1)) := by
  show StableHlo.after hostOps1 (W2 m ρ c) (Proc.devRef .tc main_v40) = _
  after_results_simp
  rw [hr_W2_v1, hr_W2_v3, hr_W2_v11]
  rfl
theorem V3_v27 (c : Dev nD) : V3 m ρ c main_v27 = V2 m ρ c main_v27 := by
  show StableHlo.after hostOps1 (W2 m ρ c) (Proc.devRef .tc main_v27) = W2 m ρ c (Proc.devRef .tc main_v27)
  after_results_simp <;> rfl
theorem V3_v41 (c : Dev nD) : V3 m ρ c main_v41 = transpose S64x64 [1, 0] (m ((c : Thread nD τ).loc main_arg5)) transposes_S64x64_S64x64_1_0 := by
  show StableHlo.after hostOps1 (W2 m ρ c) (Proc.devRef .tc main_v41) = _
  after_results_simp
  rw [hr_W2_arg5]
theorem V3_arg6 (c : Dev nD) : V3 m ρ c main_arg6 = m ((c : Thread nD τ).loc main_arg6) := by
  show StableHlo.after hostOps1 (W2 m ρ c) (Proc.devRef .tc main_arg6) = _
  after_results_simp
  exact hr_W2_arg6 m ρ c
theorem V3_v42 (c : Dev nD) : V3 m ρ c main_v42 = transpose S64x64 [1, 0] (m ((c : Thread nD τ).loc main_arg7)) transposes_S64x64_S64x64_1_0 := by
  show StableHlo.after hostOps1 (W2 m ρ c) (Proc.devRef .tc main_v42) = _
  after_results_simp
  rw [hr_W2_arg7]
theorem V3_v43 (c : Dev nD) : V3 m ρ c main_v43 = transpose S64x1 [1, 0] (m ((c : Thread nD τ).loc main_arg8)) transposes_S1x64_S64x1_1_0 := by
  show StableHlo.after hostOps1 (W2 m ρ c) (Proc.devRef .tc main_v43) = _
  after_results_simp
  rw [hr_W2_arg8]
theorem V3_arg9 (c : Dev nD) : V3 m ρ c main_arg9 = m ((c : Thread nD τ).loc main_arg9) := by
  show StableHlo.after hostOps1 (W2 m ρ c) (Proc.devRef .tc main_arg9) = _
  after_results_simp
  exact hr_W2_arg9 m ρ c
/-! Region 1's exit: the result. -/
theorem W4_v44 (c : Dev nD) : W4 m ρ c (Proc.devRef .tc main_v44) = (dat1 (V3 m ρ) c).arrAt 7 cfg1.N :=
  W4_arr m ρ c 7

end Cert.KernelIdeal.Hand

end
-- ==== Proof.KernelValue.lean ====
/-
  The kernel program's result as one function of the arguments.

  Reading the boundaries of the main function backwards: the result buffer holds what the second region leaves, which is
  the read-out of the second layer of the arrays that region found; those are the neighbour mean of the first region's
  output, that output itself, and the transposed weights and the biases as launched; and the first region's output is
  the first layer of the neighbour mean of the node features, the node features, and the transposed weights and the bias
  as launched.
-/
import proofs.«112808_j6554120093875_1_alg».proof.Proof.Region0
import proofs.«112808_j6554120093875_1_alg».proof.Proof.Region1
import proofs.«112808_j6554120093875_1_alg».proof.Proof.HostRead

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- The first layer's output, as the second stretch and the second region find it. -/
theorem first_layer (c : Dev nD) :
    V2 m ρ c main_v27
      = Cert.Spec.sage (mean11 (F := Ideal) (m ((c : Thread nD τ).loc main_arg0)) (m ((c : Thread nD τ).loc main_arg1)))
          (m ((c : Thread nD τ).loc main_arg0))
          (transpose S11x64 [1, 0] (m ((c : Thread nD τ).loc main_arg2)) transposes_S64x11_S11x64_1_0)
          (transpose S11x64 [1, 0] (m ((c : Thread nD τ).loc main_arg4)) transposes_S64x11_S11x64_1_0)
          (m ((c : Thread nD τ).loc main_arg3)) := by
  rw [V2_v27, region0_value, V1_v24, V1_arg0, V1_v25, V1_v26, V1_arg3]

/-- The result buffer after the run. -/
theorem result_value (c : Dev nD) :
    W4 m ρ c (Proc.devRef .tc main_v44)
      = Cert.Spec.lin
          (Cert.Spec.sage (mean64 (F := Ideal) (V2 m ρ c main_v27) (m ((c : Thread nD τ).loc main_arg1)))
            (V2 m ρ c main_v27)
            (transpose S64x64 [1, 0] (m ((c : Thread nD τ).loc main_arg5)) transposes_S64x64_S64x64_1_0)
            (transpose S64x64 [1, 0] (m ((c : Thread nD τ).loc main_arg7)) transposes_S64x64_S64x64_1_0)
            (m ((c : Thread nD τ).loc main_arg6)))
          (transpose S64x1 [1, 0] (m ((c : Thread nD τ).loc main_arg8)) transposes_S1x64_S64x1_1_0)
          (m ((c : Thread nD τ).loc main_arg9)) := by
  rw [W4_v44, region1_value, V3_v40, V3_v27, V3_v41, V3_v42, V3_arg6, V3_v43, V3_arg9]

end Cert.KernelIdeal.Hand

end
-- ==== Proof.DenseHost.lean ====
/-
  The host's spelling of a dense layer, read index by index at the ideal values.

  A `dot_general` of [M, K] with [K, N] that contracts the left operand's axis 1 with the right operand's axis 0 is, at
  row `p` and column `o`, the sum over `k` of `A p k · B k o`. So `relu ((a · wl + bias) + x · wr)` — the order in which the
  reference adds — is the layer `relu ((a · wl + x · wr) + bias)`: addition of extended reals is commutative and
  associative, infinities included. Likewise the read-out.

  The mean: a sum array multiplied row by row with the broadcast reciprocal `1 / c` is the sum array divided by the
  broadcast `c`, wherever `c` is nowhere zero; broadcasting only re-indexes, so it commutes with the pointwise quotient.
-/
import proofs.«112808_j6554120093875_1_alg».proof.Proof.Spec

noncomputable section

open scoped BigOperators
open Idealize.ShloMosaic Idealize.ShloMosaic.ValueIdx

namespace Cert.DenseHost

/-- A plain `dot_general` read at `(p, o)` is `∑ k, A (p, k) · B (k, o)`, for any record whose index maps keep the left
    rows and the right columns and contract the one remaining pair of axes (the four facts `hl0 … hr1`). -/
theorem dotGeneral_ix2 {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    Host.dotGeneral d prec A B (ix2 p o) = ∑ k : Fin K, A (ix2 p k) * B (ix2 k o) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

/-- The reference's layer `relu ((a · wl + bias) + x · wr)`, with the bias given already broadcast (`bb`, column `o` of
    every row being `b o`) and the floor given as an array that is zero everywhere, is the layer `Spec.sage`. -/
theorem hostLayer_eq_sage {M K N : ℕ}
    (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (a x : FVec Ideal ⟨2, ![M, K]⟩ .f32) (wl wr : FVec Ideal ⟨2, ![K, N]⟩ .f32) (b : FVec Ideal ⟨1, ![N]⟩ .f32)
    (bb z : FVec Ideal ⟨2, ![M, N]⟩ .f32)
    (hbb : ∀ (p : Fin M) (o : Fin N), bb (ix2 p o) = b (ix1 o)) (hz : ∀ i, z i = 0) :
    maximumf (addf (addf (Host.dotGeneral d none a wl) bb) (Host.dotGeneral d none x wr)) z = Cert.Spec.sage a x wl wr b := by
  funext i
  obtain ⟨p, o, rfl⟩ : ∃ (p : Fin M) (o : Fin N), i = ix2 p o := ⟨i 0, i 1, eq_ix2 i⟩
  rw [Cert.Spec.sage_ix2, maximumf_apply, addf_apply, addf_apply, hz, hbb,
    dotGeneral_ix2 d none hr hs hl0 hl1 hr0 hr1, dotGeneral_ix2 d none hr hs hl0 hl1 hr0 hr1]
  unfold Cert.Spec.sageAt
  rw [add_right_comm]

/-- The reference's read-out `h · w + bias`, the bias given already broadcast, is `Spec.lin`. -/
theorem hostLin_eq_lin {M K N : ℕ}
    (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (h : FVec Ideal ⟨2, ![M, K]⟩ .f32) (w : FVec Ideal ⟨2, ![K, N]⟩ .f32) (b : FVec Ideal ⟨1, ![N]⟩ .f32)
    (bb : FVec Ideal ⟨2, ![M, N]⟩ .f32) (hbb : ∀ (p : Fin M) (o : Fin N), bb (ix2 p o) = b (ix1 o)) :
    addf (Host.dotGeneral d none h w) bb = Cert.Spec.lin h w b := by
  funext i
  obtain ⟨p, o, rfl⟩ : ∃ (p : Fin M) (o : Fin N), i = ix2 p o := ⟨i 0, i 1, eq_ix2 i⟩
  rw [Cert.Spec.lin_ix2, addf_apply, hbb, dotGeneral_ix2 d none hr hs hl0 hl1 hr0 hr1]
  rfl

/-- The mean law: a sum array times the twice-broadcast reciprocal `one / c` is the sum array divided by the
    twice-broadcast `c`, when `one` is one everywhere and `c` is nowhere zero. -/
theorem mean_eq {s s₁ t : Shape} (d₁ : Fin s.rank → Fin s₁.rank) (h₁ : s.BroadcastsInDim s₁ d₁)
    (d₂ : Fin s₁.rank → Fin t.rank) (h₂ : s₁.BroadcastsInDim t d₂)
    (A : FVec Ideal t .f32) (one c : FVec Ideal s .f32) (hone : ∀ j, one j = 1) (hc : ∀ j, c j ≠ 0) :
    mulf A (broadcastInDim t d₂ h₂ (broadcastInDim s₁ d₁ h₁ (Host.divf one c)))
      = Host.divf A (broadcastInDim t d₂ h₂ (broadcastInDim s₁ d₁ h₁ c)) := by
  funext i
  show A i * Ideal.div (one _) (c _) = Ideal.div (A i) (c _)
  rw [hone]
  exact Cert.Spec.mul_div_one _ _ (hc _)

end Cert.DenseHost

end
-- ==== Proof.RefBridge.lean ====
/-
  The reference, stage by stage, is the kernel program's function of the arguments.

  Both programs gather each edge's source row and add it into the destination's row with the same host operations, and
  both count the edges into each node the same way: those stages are one term on both sides. They differ where the
  reference DIVIDES the neighbour sum by `max cnt 1` and the kernel's program MULTIPLIES it by `1 / max cnt 1`: one value
  on the extended reals, since `max cnt 1 ≥ 1` is never zero. They differ again where the reference adds the bias before
  the second product and the kernel after it: one value, by commutativity and associativity of the sum. With the first
  layer's outputs equal as arrays the second layer's neighbour sums are equal, and the same two laws close the second
  layer and the read-out.
-/
import proofs.«112808_j6554120093875_1_alg».proof.Proof.Gen.ReferenceIdeal.Read
import proofs.«112808_j6554120093875_1_alg».proof.Proof.HostDefs
import proofs.«112808_j6554120093875_1_alg».proof.Proof.DenseHost

noncomputable section

open Idealize.ShloMosaic Idealize.ShloMosaic.ValueIdx Idealize.SL.Sem

namespace Cert.RefBridge

open Cert.ReferenceIdeal Cert.ReferenceIdeal.Gen Cert.ReferenceIdeal.Read
open Cert.KernelIdeal.Hand (sum11 sum64 mean11 mean64 cntMax rcpK)

variable (x0 : (⟨S100000x11, .f32⟩ : BufTy).Contents (Elt Ideal)) (x1 : (⟨S2x3200000, .i32⟩ : BufTy).Contents (Elt Ideal))
  (x2 : (⟨S64x11, .f32⟩ : BufTy).Contents (Elt Ideal)) (x3 : (⟨S64, .f32⟩ : BufTy).Contents (Elt Ideal))
  (x4 : (⟨S64x11, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S1x64, .f32⟩ : BufTy).Contents (Elt Ideal)) (x9 : (⟨S1, .f32⟩ : BufTy).Contents (Elt Ideal))

/-! ## The shared host stages are one term -/

/-- The neighbour sum of the input features. -/
theorem sum11_eq : sum11 (F := Ideal) x0 x1 = val_main_v13 (F := Ideal) x0 x1 := rfl

/-- The edge count raised to at least one. -/
theorem cntMax_eq : cntMax (F := Ideal) x1 = val_main_v19 (F := Ideal) x1 := rfl

/-- The same count as the second layer's program recomputes it. -/
theorem cntMax_eq' : cntMax (F := Ideal) x1 = val_main_v47 (F := Ideal) x1 := rfl

/-- The neighbour sum of the first layer's output. -/
theorem sum64_eq :
    sum64 (F := Ideal) (val_main_v31 (F := Ideal) x0 x1 x2 x3 x4) x1 = val_main_v41 (F := Ideal) x0 x1 x2 x3 x4 := rfl

/-! ## The count is never zero, the splat of one is one -/

theorem ones_apply (j : S100000.Idx) :
    (broadcastInDim S100000 ![] bcast_S_S100000 (constant (F := Ideal) S_ .f32 0x3F800000#32)) j = 1 := by
  unfold broadcastInDim
  rw [constant_apply]
  exact Cert.Spec.ofBits_one

theorem cnt_ne_zero (j : S100000.Idx) : val_main_v19 (F := Ideal) x1 j ≠ 0 := by
  rw [val_main_v19_apply, Ideal.maximumf_def, val_main_v18_apply, val_main_cst_3_apply, Ideal.ofBits_def, Cert.Spec.ofBits_one]
  exact Cert.Spec.max_one_ne_zero _

theorem cnt_ne_zero' (j : S100000.Idx) : val_main_v47 (F := Ideal) x1 j ≠ 0 := by
  rw [val_main_v47_apply, Ideal.maximumf_def, val_main_v46_apply, val_main_cst_9_apply, Ideal.ofBits_def, Cert.Spec.ofBits_one]
  exact Cert.Spec.max_one_ne_zero _

/-! ## The first layer -/

/-- The neighbour mean: the sum times `1 / max cnt 1` is the sum divided by `max cnt 1`. -/
theorem mean11_eq : mean11 (F := Ideal) x0 x1 = val_main_v22 (F := Ideal) x0 x1 := by
  unfold mean11 rcpK
  rw [sum11_eq, cntMax_eq]
  exact Cert.DenseHost.mean_eq _ bcast_S100000_S100000x1_0 _ bcast_S100000x1_S100000x11_0_1 _ _ _ ones_apply (cnt_ne_zero x1)

/-- The bias broadcast to every row reads the bias at the column. -/
theorem bias1_apply (p : Fin 100000) (o : Fin 64) : val_main_v26 (F := Ideal) x3 (ix2 p o) = x3 (ix1 o) := by
  rw [val_main_v26_apply, val_main_v25_apply]
  exact congrArg x3 (funext fun a => by match a with | ⟨0, _⟩ => rfl)

theorem zeros1_apply (i : S100000x64.Idx) : val_main_call0_v0 (F := Ideal) i = 0 := by
  rw [val_main_call0_v0_apply, val_main_call0_cst_apply, Ideal.ofBits_def]
  exact Ideal.ofBits_zero_f32

/-- The first layer's output. -/
theorem layer1_eq :
    Cert.Spec.sage (val_main_v22 (F := Ideal) x0 x1) x0 (val_main_v23 (F := Ideal) x2) (val_main_v28 (F := Ideal) x4) x3
      = val_main_v31 (F := Ideal) x0 x1 x2 x3 x4 :=
  (Cert.DenseHost.hostLayer_eq_sage dot_S100000x11_S11x64_S100000x64_1_0_0_1_n_n rfl rfl
    lhs_main_v24_0 lhs_main_v24_1 rhs_main_v24_0 rhs_main_v24_1 _ _ _ _ _ _ _ (bias1_apply x3) zeros1_apply).symm

/-! ## The second layer -/

theorem mean64_eq :
    mean64 (F := Ideal) (val_main_v31 (F := Ideal) x0 x1 x2 x3 x4) x1 = val_main_v50 (F := Ideal) x0 x1 x2 x3 x4 := by
  unfold mean64 rcpK
  rw [sum64_eq, cntMax_eq']
  exact Cert.DenseHost.mean_eq _ bcast_S100000_S100000x1_0 _ bcast_S100000x1_S100000x64_0_1 _ _ _ ones_apply (cnt_ne_zero' x1)

theorem bias2_apply (p : Fin 100000) (o : Fin 64) : val_main_v54 (F := Ideal) x6 (ix2 p o) = x6 (ix1 o) := by
  rw [val_main_v54_apply, val_main_v53_apply]
  exact congrArg x6 (funext fun a => by match a with | ⟨0, _⟩ => rfl)

theorem zeros2_apply (i : S100000x64.Idx) : val_main_call1_v0 (F := Ideal) i = 0 := by
  rw [val_main_call1_v0_apply, val_main_call1_cst_apply, Ideal.ofBits_def]
  exact Ideal.ofBits_zero_f32

/-- The second layer's output. -/
theorem layer2_eq :
    Cert.Spec.sage (val_main_v50 (F := Ideal) x0 x1 x2 x3 x4) (val_main_v31 (F := Ideal) x0 x1 x2 x3 x4)
        (val_main_v51 (F := Ideal) x5) (val_main_v56 (F := Ideal) x7) x6
      = val_main_v59 (F := Ideal) x0 x1 x2 x3 x4 x5 x6 x7 :=
  (Cert.DenseHost.hostLayer_eq_sage dot_S100000x64_S64x64_S100000x64_1_0_0_1_n_n rfl rfl
    lhs_main_v52_0 lhs_main_v52_1 rhs_main_v52_0 rhs_main_v52_1 _ _ _ _ _ _ _ (bias2_apply x6) zeros2_apply).symm

/-! ## The read-out -/

theorem bias3_apply (p : Fin 100000) (o : Fin 1) : val_main_v63 (F := Ideal) x9 (ix2 p o) = x9 (ix1 o) := by
  rw [val_main_v63_apply, val_main_v62_apply]
  exact congrArg x9 (funext fun a => by match a with | ⟨0, _⟩ => exact Fin.ext (by have := o.isLt; show 0 = o.val; omega))

theorem readout_eq :
    Cert.Spec.lin (val_main_v59 (F := Ideal) x0 x1 x2 x3 x4 x5 x6 x7) (val_main_v60 (F := Ideal) x8) x9
      = val_main_v64 (F := Ideal) x0 x1 x2 x3 x4 x5 x6 x7 x8 x9 :=
  (Cert.DenseHost.hostLin_eq_lin dot_S100000x64_S64x1_S100000x1_1_0_0_1_n_n rfl rfl
    lhs_main_v61_0 lhs_main_v61_1 rhs_main_v61_0 rhs_main_v61_1 _ _ _ _ (bias3_apply x9)).symm

/-! ## The whole function -/

/-- The kernel program's function of the arguments — the read-out of the second layer over the first, each layer on the
    product-with-reciprocal mean — is the reference's last stage. -/
theorem kernel_fn_eq :
    Cert.Spec.lin
        (Cert.Spec.sage
          (mean64 (F := Ideal) (Cert.Spec.sage (mean11 (F := Ideal) x0 x1) x0 (val_main_v23 (F := Ideal) x2) (val_main_v28 (F := Ideal) x4) x3) x1)
          (Cert.Spec.sage (mean11 (F := Ideal) x0 x1) x0 (val_main_v23 (F := Ideal) x2) (val_main_v28 (F := Ideal) x4) x3)
          (val_main_v51 (F := Ideal) x5) (val_main_v56 (F := Ideal) x7) x6)
        (val_main_v60 (F := Ideal) x8) x9
      = val_main_v64 (F := Ideal) x0 x1 x2 x3 x4 x5 x6 x7 x8 x9 := by
  rw [mean11_eq, layer1_eq, mean64_eq, layer2_eq, readout_eq]

end Cert.RefBridge

end
-- ==== Proof.lean ====
/-
  A two-layer mean-aggregating graph convolution with a linear read-out, against its plain reference, over the
  extended reals.

  Both programs gather each edge's source row, add it into the destination's row, and count the edges into each node,
  with the same host operations. The kernel's program then runs each dense layer
  `relu ((mean · Wlᵀ + x · Wrᵀ) + b)` in a kernel region over 25 row blocks of 4000 (the second region also applying the
  read-out `· Wlinᵀ + blin`), where the reference runs them as host products. Two laws join the two sides: the kernel's
  program multiplies the neighbour sum by `1 / max cnt 1` where the reference divides it by `max cnt 1` — one value on
  the extended reals, `max cnt 1` being never zero — and the two add the bias in different places of the same sum, which
  is commutative and associative, infinities included. Neither law needs the inputs finite, so the precondition is never
  opened.

  The three frames: the kernel's program at both instances by its generated frame; the reference's by its generated run
  with the result dropped. No rewrite was applied when the idealized program was printed, so there is nothing to preserve.
  The value claim: the kernel program's run ends with its result buffer at the read-out of the second layer over the
  first (`result_value`, `first_layer`), the reference's at its last stage, and the two are one function of the
  arguments (`kernel_fn_eq`).
-/
import proofs.«112808_j6554120093875_1_alg».proof.Defs
import proofs.«112808_j6554120093875_1_alg».proof.Proof.Gen.Kernel
import proofs.«112808_j6554120093875_1_alg».proof.Proof.Gen.Kernel.Skeleton
import proofs.«112808_j6554120093875_1_alg».proof.Proof.Gen.Kernel.Launch
import proofs.«112808_j6554120093875_1_alg».proof.Proof.Gen.Kernel.Points
import proofs.«112808_j6554120093875_1_alg».proof.Proof.Gen.Kernel.Frame
import proofs.«112808_j6554120093875_1_alg».proof.Proof.Gen.KernelIdeal
import proofs.«112808_j6554120093875_1_alg».proof.Proof.Gen.KernelIdeal.Skeleton
import proofs.«112808_j6554120093875_1_alg».proof.Proof.Gen.KernelIdeal.Launch
import proofs.«112808_j6554120093875_1_alg».proof.Proof.Gen.KernelIdeal.Points
import proofs.«112808_j6554120093875_1_alg».proof.Proof.Gen.KernelIdeal.Frame
import proofs.«112808_j6554120093875_1_alg».proof.Proof.Gen.ReferenceIdeal
import proofs.«112808_j6554120093875_1_alg».proof.Proof.Gen.ReferenceIdeal.Run
import proofs.«112808_j6554120093875_1_alg».proof.Proof.Gen.ReferenceIdeal.Read
import proofs.«112808_j6554120093875_1_alg».proof.Proof.Gen.Pre_finite_inputs
import proofs.«112808_j6554120093875_1_alg».proof.Proof.KernelRun
import proofs.«112808_j6554120093875_1_alg».proof.Proof.KernelValue
import proofs.«112808_j6554120093875_1_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel program's result, a function of its arguments, is the reference's last stage at the same arguments. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v44)
      = Cert.ReferenceIdeal.Read.val_main_v64 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  rw [Cert.KernelIdeal.Hand.result_value, Cert.KernelIdeal.Hand.first_layer]
  exact Cert.RefBridge.kernel_fn_eq _ _ _ _ _ _ _ _ _ _

/-- Both programs run; the kernel's result buffer ends at `result_eq`'s left side, the reference's at its right side
    over arguments that agree. -/
theorem algebraic : Cert.algebraic_KernelIdeal_ReferenceIdeal := by
  intro m ρ m' ρ' _ hagree
  refine ⟨fun c => Cert.KernelIdeal.Gen.W4 m ρ c (Proc.devRef .tc Cert.KernelIdeal.main_v44),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v64_eq, e0, e1, e2, e3, e4, e5, e6, e7, e8, e9]
  exact (result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
